-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S128x128 : Shape := ⟨2, ![128, 128]⟩
abbrev S384x384 : Shape := ⟨2, ![384, 384]⟩
abbrev S640x640 : Shape := ⟨2, ![640, 640]⟩
abbrev S896x896 : Shape := ⟨2, ![896, 896]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S384x384 : S_.BroadcastsInDim S384x384 (![] : Fin 0 → Fin S384x384.rank)
  reducesTo_S384x384_S_d0_1 : S384x384.ReducesTo [0, 1] S_
  bcast_S_S640x640 : S_.BroadcastsInDim S640x640 (![] : Fin 0 → Fin S640x640.rank)
  reducesTo_S640x640_S_d0_1 : S640x640.ReducesTo [0, 1] S_
  bcast_S_S896x896 : S_.BroadcastsInDim S896x896 (![] : Fin 0 → Fin S896x896.rank)
  reducesTo_S896x896_S_d0_1 : S896x896.ReducesTo [0, 1] S_

variable [Facts]

def fn_part2 {F : FTy → Type} [FloatOps F] (main_arg7 : FVec F S896x896 .f32) (main_arg8 : FVec F S896x896 .f32) (main_v33 : IVec S_ 1) : IVec S_ 1 :=
  let main_v34 : FVec F S896x896 .f32 := Host.absf main_arg7
  let main_cst_12 : FVec F S_ .f32 := constant S_ .f32 0x7F800000#32
  let main_v35 : FVec F S896x896 .f32 := broadcastInDim S896x896 ![] bcast_S_S896x896 main_cst_12
  let main_v36 : IVec S896x896 1 := cmpf .olt main_v34 main_v35
  let main_c_13 : IVec S_ 1 := constantI S_ 1 1#1
  let main_v37 : IVec S_ 1 := (fun x v => Host.reduce IntOp.andi x v reducesTo_S896x896_S_d0_1 h_S_) main_v36 main_c_13
  let main_v38 : IVec S_ 1 := andi main_v33 main_v37
  let main_v39 : FVec F S896x896 .f32 := Host.absf main_arg8
  let main_cst_14 : FVec F S_ .f32 := constant S_ .f32 0x7F800000#32
  let main_v40 : FVec F S896x896 .f32 := broadcastInDim S896x896 ![] bcast_S_S896x896 main_cst_14
  let main_v41 : IVec S896x896 1 := cmpf .olt main_v39 main_v40
  let main_c_15 : IVec S_ 1 := constantI S_ 1 1#1
  let main_v42 : IVec S_ 1 := (fun x v => Host.reduce IntOp.andi x v reducesTo_S896x896_S_d0_1 h_S_) main_v41 main_c_15
  let main_v43 : IVec S_ 1 := andi main_v38 main_v42
  main_v43

def fn_part1 {F : FTy → Type} [FloatOps F] (main_arg4 : FVec F S384x384 .f32) (main_arg5 : FVec F S640x640 .f32) (main_arg6 : FVec F S640x640 .f32) (main_arg7 : FVec F S896x896 .f32) (main_arg8 : FVec F S896x896 .f32) (main_v13 : IVec S_ 1) (main_v16 : IVec S384x384 1) : IVec S_ 1 :=
  let main_c_5 : IVec S_ 1 := constantI S_ 1 1#1
  let main_v17 : IVec S_ 1 := (fun x v => Host.reduce IntOp.andi x v reducesTo_S384x384_S_d0_1 h_S_) main_v16 main_c_5
  let main_v18 : IVec S_ 1 := andi main_v13 main_v17
  let main_v19 : FVec F S384x384 .f32 := Host.absf main_arg4
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S640x640 .f32 := Host.absf main_arg5
  let main_cst_8 : FVec F S_ .f32 := constant S_ .f32 0x7F800000#32
  let main_v25 : FVec F S640x640 .f32 := broadcastInDim S640x640 ![] bcast_S_S640x640 main_cst_8
  let main_v26 : IVec S640x640 1 := cmpf .olt main_v24 main_v25
  let main_c_9 : IVec S_ 1 := constantI S_ 1 1#1
  let main_v27 : IVec S_ 1 := (fun x v => Host.reduce IntOp.andi x v reducesTo_S640x640_S_d0_1 h_S_) main_v26 main_c_9
  let main_v28 : IVec S_ 1 := andi main_v23 main_v27
  let main_v29 : FVec F S640x640 .f32 := Host.absf main_arg6
  let main_cst_10 : FVec F S_ .f32 := constant S_ .f32 0x7F800000#32
  let main_v30 : FVec F S640x640 .f32 := broadcastInDim S640x640 ![] bcast_S_S640x640 main_cst_10
  let main_v31 : IVec S640x640 1 := cmpf .olt main_v29 main_v30
  let main_c_11 : IVec S_ 1 := constantI S_ 1 1#1
  let main_v32 : IVec S_ 1 := (fun x v => Host.reduce IntOp.andi x v reducesTo_S640x640_S_d0_1 h_S_) main_v31 main_c_11
  let main_v33 : IVec S_ 1 := andi main_v28 main_v32
  fn_part2 (F := F) main_arg7 main_arg8 main_v33

def fn {F : FTy → Type} [FloatOps F] (main_arg0 : FVec F S32768x4096 .f32) (main_arg1 : FVec F S128x128 .f32) (main_arg2 : FVec F S128x128 .f32) (main_arg3 : FVec F S384x384 .f32) (main_arg4 : FVec F S384x384 .f32) (main_arg5 : FVec F S640x640 .f32) (main_arg6 : FVec F S640x640 .f32) (main_arg7 : FVec F S896x896 .f32) (main_arg8 : FVec F S896x896 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S384x384 .f32 := Host.absf main_arg3
  let main_cst_4 : FVec F S_ .f32 := constant S_ .f32 0x7F800000#32
  let main_v15 : FVec F S384x384 .f32 := broadcastInDim S384x384 ![] bcast_S_S384x384 main_cst_4
  let main_v16 : IVec S384x384 1 := cmpf .olt main_v14 main_v15
  fn_part1 (F := F) main_arg4 main_arg5 main_arg6 main_arg7 main_arg8 main_v13 main_v16
-- ==== Kernel.lean ====
abbrev S32768x4096 : Shape := ⟨2, ![32768, 4096]⟩
abbrev S128x128 : Shape := ⟨2, ![128, 128]⟩
abbrev S384x384 : Shape := ⟨2, ![384, 384]⟩
abbrev S640x640 : Shape := ⟨2, ![640, 640]⟩
abbrev S896x896 : Shape := ⟨2, ![896, 896]⟩
abbrev S256x4096 : Shape := ⟨2, ![256, 4096]⟩
abbrev S256x128 : Shape := ⟨2, ![256, 128]⟩
abbrev S256x384 : Shape := ⟨2, ![256, 384]⟩
abbrev S256x640 : Shape := ⟨2, ![256, 640]⟩
abbrev S256x896 : Shape := ⟨2, ![256, 896]⟩

abbrev nBuf : Space → Nat
  | .hbm => 18
  | .vmem => 12
  | .smem => 0
  | _ => 0

abbrev bufTy : (tb : Table) → Fin (tcTables nBuf tb) → BufTy
  | .hbm, ⟨0, _⟩ => ⟨S32768x4096, .f32⟩
  | .hbm, ⟨1, _⟩ => ⟨S128x128, .f32⟩
  | .hbm, ⟨2, _⟩ => ⟨S128x128, .f32⟩
  | .hbm, ⟨3, _⟩ => ⟨S384x384, .f32⟩
  | .hbm, ⟨4, _⟩ => ⟨S384x384, .f32⟩
  | .hbm, ⟨5, _⟩ => ⟨S640x640, .f32⟩
  | .hbm, ⟨6, _⟩ => ⟨S640x640, .f32⟩
  | .hbm, ⟨7, _⟩ => ⟨S896x896, .f32⟩
  | .hbm, ⟨8, _⟩ => ⟨S896x896, .f32⟩
  | .hbm, ⟨9, _⟩ => ⟨S128x128, .f32⟩
  | .hbm, ⟨10, _⟩ => ⟨S128x128, .f32⟩
  | .hbm, ⟨11, _⟩ => ⟨S384x384, .f32⟩
  | .hbm, ⟨12, _⟩ => ⟨S384x384, .f32⟩
  | .hbm, ⟨13, _⟩ => ⟨S640x640, .f32⟩
  | .hbm, ⟨14, _⟩ => ⟨S640x640, .f32⟩
  | .hbm, ⟨15, _⟩ => ⟨S896x896, .f32⟩
  | .hbm, ⟨16, _⟩ => ⟨S896x896, .f32⟩
  | .hbm, ⟨17, _⟩ => ⟨S32768x4096, .f32⟩
  | .local _ .vmem, ⟨0, _⟩ => ⟨S256x4096, .f32⟩
  | .local _ .vmem, ⟨1, _⟩ => ⟨S256x4096, .f32⟩
  | .local _ .vmem, ⟨2, _⟩ => ⟨S128x128, .f32⟩
  | .local _ .vmem, ⟨3, _⟩ => ⟨S128x128, .f32⟩
  | .local _ .vmem, ⟨4, _⟩ => ⟨S384x384, .f32⟩
  | .local _ .vmem, ⟨5, _⟩ => ⟨S384x384, .f32⟩
  | .local _ .vmem, ⟨6, _⟩ => ⟨S640x640, .f32⟩
  | .local _ .vmem, ⟨7, _⟩ => ⟨S640x640, .f32⟩
  | .local _ .vmem, ⟨8, _⟩ => ⟨S896x896, .f32⟩
  | .local _ .vmem, ⟨9, _⟩ => ⟨S896x896, .f32⟩
  | .local _ .vmem, ⟨10, _⟩ => ⟨S256x4096, .f32⟩
  | .local _ .vmem, ⟨11, _⟩ => ⟨S256x4096, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S640x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S896x896 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S896x896 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S128x128_S128x128_1_0 : S128x128.Transposes [1, 0] S128x128
  transposes_S384x384_S384x384_1_0 : S384x384.Transposes [1, 0] S384x384
  transposes_S640x640_S640x640_1_0 : S640x640.Transposes [1, 0] S640x640
  transposes_S896x896_S896x896_1_0 : S896x896.Transposes [1, 0] S896x896
  inb_S256x4096_S256x4096_0_0 : ∀ a, (![0, 0] : Fin 2 → Nat) a + S256x4096.size a ≤ S256x4096.size a
  h_S256x4096 : 0 < S256x4096.numel
  slices_S256x4096_o0_0_S256x128 : S256x4096.Slices ![0, 0] S256x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S256x4096_S256x128_0_0 : ∀ a, (![0, 0] : Fin 2 → Nat) a + S256x128.size a ≤ S256x4096.size a
  h_S256x128 : 0 < S256x128.numel
  slices_S256x4096_o0_128_S256x128 : S256x4096.Slices ![0, 128] S256x128
  inb_S256x4096_S256x128_0_128 : ∀ a, (![0, 128] : Fin 2 → Nat) a + S256x128.size a ≤ S256x4096.size a
  slices_S256x4096_o0_256_S256x384 : S256x4096.Slices ![0, 256] S256x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S256x4096_S256x384_0_256 : ∀ a, (![0, 256] : Fin 2 → Nat) a + S256x384.size a ≤ S256x4096.size a
  h_S256x384 : 0 < S256x384.numel
  slices_S256x4096_o0_640_S256x384 : S256x4096.Slices ![0, 640] S256x384
  inb_S256x4096_S256x384_0_640 : ∀ a, (![0, 640] : Fin 2 → Nat) a + S256x384.size a ≤ S256x4096.size a
  slices_S256x4096_o0_1024_S256x640 : S256x4096.Slices ![0, 1024] S256x640
  inb_S640x640_S640x640_0_0 : ∀ a, (![0, 0] : Fin 2 → Nat) a + S640x640.size a ≤ S640x640.size a
  h_S640x640 : 0 < S640x640.numel
  shapeCasts_S640x640_S640x640 : S640x640.ShapeCasts S640x640
  inb_S256x4096_S256x640_0_1024 : ∀ a, (![0, 1024] : Fin 2 → Nat) a + S256x640.size a ≤ S256x4096.size a
  h_S256x640 : 0 < S256x640.numel
  slices_S256x4096_o0_1664_S256x640 : S256x4096.Slices ![0, 1664] S256x640
  inb_S256x4096_S256x640_0_1664 : ∀ a, (![0, 1664] : Fin 2 → Nat) a + S256x640.size a ≤ S256x4096.size a
  slices_S256x4096_o0_2304_S256x896 : S256x4096.Slices ![0, 2304] S256x896
  inb_S896x896_S896x896_0_0 : ∀ a, (![0, 0] : Fin 2 → Nat) a + S896x896.size a ≤ S896x896.size a
  h_S896x896 : 0 < S896x896.numel
  shapeCasts_S896x896_S896x896 : S896x896.ShapeCasts S896x896
  inb_S256x4096_S256x896_0_2304 : ∀ a, (![0, 2304] : Fin 2 → Nat) a + S256x896.size a ≤ S256x4096.size a
  h_S256x896 : 0 < S256x896.numel
  slices_S256x4096_o0_3200_S256x896 : S256x4096.Slices ![0, 3200] S256x896
  inb_S256x4096_S256x896_0_3200 : ∀ a, (![0, 3200] : Fin 2 → Nat) a + S256x896.size a ≤ S256x4096.size a
  dot_S256x128_S128x128_S256x128_1_0_0_1_n_n_wf : DotDims.WF S256x128 S128x128 S256x128 [1] [0] [0] [1] [] []
  dot_S256x384_S384x384_S256x384_1_0_0_1_n_n_wf : DotDims.WF S256x384 S384x384 S256x384 [1] [0] [0] [1] [] []
  dot_S256x640_S640x640_S256x640_1_0_0_1_n_n_wf : DotDims.WF S256x640 S640x640 S256x640 [1] [0] [0] [1] [] []
  dot_S256x896_S896x896_S256x896_1_0_0_1_n_n_wf : DotDims.WF S256x896 S896x896 S256x896 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S32768x4096.size a
  hwx0_0 : ∀ i : grid0.Coords, EltTy.bits .f32 = 32 ∨ (Rect.block (s := S32768x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .f32 = 32 ∨ (Rect.block (s := S384x384) S384x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x384.size a ≤ S384x384.size a
  hwx0_4 : ∀ i : grid0.Coords, EltTy.bits .f32 = 32 ∨ (Rect.block (s := S384x384) S384x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x640.size a ≤ S640x640.size a
  hwx0_5 : ∀ i : grid0.Coords, EltTy.bits .f32 = 32 ∨ (Rect.block (s := S640x640) S640x640.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S640x640.size a ≤ S640x640.size a
  hwx0_6 : ∀ i : grid0.Coords, EltTy.bits .f32 = 32 ∨ (Rect.block (s := S640x640) S640x640.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S896x896.size a ≤ S896x896.size a
  hwx0_7 : ∀ i : grid0.Coords, EltTy.bits .f32 = 32 ∨ (Rect.block (s := S896x896) S896x896.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S896x896.size a ≤ S896x896.size a
  hwx0_8 : ∀ i : grid0.Coords, EltTy.bits .f32 = 32 ∨ (Rect.block (s := S896x896) S896x896.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x4096.size a ≤ S32768x4096.size a
  hwx0_9 : ∀ i : grid0.Coords, EltTy.bits .f32 = 32 ∨ (Rect.block (s := S32768x4096) S256x4096.size (cc0_transform_9 i) (hinb0_9 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x384_S384x384_S256x384_1_0_0_1_n_n : DotDims S256x384 S384x384 S256x384 where
  lhsContracting := [1]
  rhsContracting := [0]
  lhsNonContracting := [0]
  rhsNonContracting := [1]
  lhsBatch := []
  rhsBatch := []
  wf := dot_S256x384_S384x384_S256x384_1_0_0_1_n_n_wf
def dot_S256x640_S640x640_S256x640_1_0_0_1_n_n : DotDims S256x640 S640x640 S256x640 where
  lhsContracting := [1]
  rhsContracting := [0]
  lhsNonContracting := [0]
  rhsNonContracting := [1]
  lhsBatch := []
  rhsBatch := []
  wf := dot_S256x640_S640x640_S256x640_1_0_0_1_n_n_wf
def dot_S256x896_S896x896_S256x896_1_0_0_1_n_n : DotDims S256x896 S896x896 S256x896 where
  lhsContracting := [1]
  rhsContracting := [0]
  lhsNonContracting := [0]
  rhsNonContracting := [1]
  lhsBatch := []
  rhsBatch := []
  wf := dot_S256x896_S896x896_S256x896_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S384x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S640x640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S640x640.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S896x896.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S896x896.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S256x4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S128x128 : Shape := ⟨2, ![128, 128]⟩
abbrev S384x384 : Shape := ⟨2, ![384, 384]⟩
abbrev S640x640 : Shape := ⟨2, ![640, 640]⟩
abbrev S896x896 : Shape := ⟨2, ![896, 896]⟩
abbrev S32768x128 : Shape := ⟨2, ![32768, 128]⟩
abbrev S32768x384 : Shape := ⟨2, ![32768, 384]⟩
abbrev S32768x640 : Shape := ⟨2, ![32768, 640]⟩
abbrev S32768x896 : Shape := ⟨2, ![32768, 896]⟩

abbrev nBuf : Space → Nat
  | .hbm => 34
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S128x128, .f32⟩
  | .hbm, ⟨2, _⟩ => ⟨S128x128, .f32⟩
  | .hbm, ⟨3, _⟩ => ⟨S384x384, .f32⟩
  | .hbm, ⟨4, _⟩ => ⟨S384x384, .f32⟩
  | .hbm, ⟨5, _⟩ => ⟨S640x640, .f32⟩
  | .hbm, ⟨6, _⟩ => ⟨S640x640, .f32⟩
  | .hbm, ⟨7, _⟩ => ⟨S896x896, .f32⟩
  | .hbm, ⟨8, _⟩ => ⟨S896x896, .f32⟩
  | .hbm, ⟨9, _⟩ => ⟨S32768x128, .f32⟩
  | .hbm, ⟨10, _⟩ => ⟨S128x128, .f32⟩
  | .hbm, ⟨11, _⟩ => ⟨S32768x128, .f32⟩
  | .hbm, ⟨12, _⟩ => ⟨S32768x128, .f32⟩
  | .hbm, ⟨13, _⟩ => ⟨S128x128, .f32⟩
  | .hbm, ⟨14, _⟩ => ⟨S32768x128, .f32⟩
  | .hbm, ⟨15, _⟩ => ⟨S32768x384, .f32⟩
  | .hbm, ⟨16, _⟩ => ⟨S384x384, .f32⟩
  | .hbm, ⟨17, _⟩ => ⟨S32768x384, .f32⟩
  | .hbm, ⟨18, _⟩ => ⟨S32768x384, .f32⟩
  | .hbm, ⟨19, _⟩ => ⟨S384x384, .f32⟩
  | .hbm, ⟨20, _⟩ => ⟨S32768x384, .f32⟩
  | .hbm, ⟨21, _⟩ => ⟨S32768x640, .f32⟩
  | .hbm, ⟨22, _⟩ => ⟨S640x640, .f32⟩
  | .hbm, ⟨23, _⟩ => ⟨S32768x640, .f32⟩
  | .hbm, ⟨24, _⟩ => ⟨S32768x640, .f32⟩
  | .hbm, ⟨25, _⟩ => ⟨S640x640, .f32⟩
  | .hbm, ⟨26, _⟩ => ⟨S32768x640, .f32⟩
  | .hbm, ⟨27, _⟩ => ⟨S32768x896, .f32⟩
  | .hbm, ⟨28, _⟩ => ⟨S896x896, .f32⟩
  | .hbm, ⟨29, _⟩ => ⟨S32768x896, .f32⟩
  | .hbm, ⟨30, _⟩ => ⟨S32768x896, .f32⟩
  | .hbm, ⟨31, _⟩ => ⟨S896x896, .f32⟩
  | .hbm, ⟨32, _⟩ => ⟨S32768x896, .f32⟩
  | .hbm, ⟨33, _⟩ => ⟨S32768x4096, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  slices_S32768x4096_S32768x128_0_0 : S32768x4096.Slices ![0, 0] S32768x128
  transposes_S128x128_S128x128_1_0 : S128x128.Transposes [1, 0] S128x128
  slices_S32768x4096_S32768x128_0_128 : S32768x4096.Slices ![0, 128] S32768x128
  slices_S32768x4096_S32768x384_0_256 : S32768x4096.Slices ![0, 256] S32768x384
  transposes_S384x384_S384x384_1_0 : S384x384.Transposes [1, 0] S384x384
  slices_S32768x4096_S32768x384_0_640 : S32768x4096.Slices ![0, 640] S32768x384
  slices_S32768x4096_S32768x640_0_1024 : S32768x4096.Slices ![0, 1024] S32768x640
  transposes_S640x640_S640x640_1_0 : S640x640.Transposes [1, 0] S640x640
  slices_S32768x4096_S32768x640_0_1664 : S32768x4096.Slices ![0, 1664] S32768x640
  slices_S32768x4096_S32768x896_0_2304 : S32768x4096.Slices ![0, 2304] S32768x896
  transposes_S896x896_S896x896_1_0 : S896x896.Transposes [1, 0] S896x896
  slices_S32768x4096_S32768x896_0_3200 : S32768x4096.Slices ![0, 3200] S32768x896
  concatenates_S32768x128_S32768x128_S32768x384_S32768x384_S32768x640_S32768x640_S32768x896_S32768x896_S32768x4096_d1 : Shape.Concatenates [S32768x128, S32768x128, S32768x384, S32768x384, S32768x640, S32768x640, S32768x896, S32768x896] S32768x4096 1
  dot_S32768x128_S128x128_S32768x128_1_0_0_1_n_n_wf : DotDims.WF S32768x128 S128x128 S32768x128 [1] [0] [0] [1] [] []
  dot_S32768x384_S384x384_S32768x384_1_0_0_1_n_n_wf : DotDims.WF S32768x384 S384x384 S32768x384 [1] [0] [0] [1] [] []
  dot_S32768x640_S640x640_S32768x640_1_0_0_1_n_n_wf : DotDims.WF S32768x640 S640x640 S32768x640 [1] [0] [0] [1] [] []
  dot_S32768x896_S896x896_S32768x896_1_0_0_1_n_n_wf : DotDims.WF S32768x896 S896x896 S32768x896 [1] [0] [0] [1] [] []

variable [Facts₀]

def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S32768x384_S384x384_S32768x384_1_0_0_1_n_n : DotDims S32768x384 S384x384 S32768x384 where
  lhsContracting := [1]
  rhsContracting := [0]
  lhsNonContracting := [0]
  rhsNonContracting := [1]
  lhsBatch := []
  rhsBatch := []
  wf := dot_S32768x384_S384x384_S32768x384_1_0_0_1_n_n_wf
def dot_S32768x640_S640x640_S32768x640_1_0_0_1_n_n : DotDims S32768x640 S640x640 S32768x640 where
  lhsContracting := [1]
  rhsContracting := [0]
  lhsNonContracting := [0]
  rhsNonContracting := [1]
  lhsBatch := []
  rhsBatch := []
  wf := dot_S32768x640_S640x640_S32768x640_1_0_0_1_n_n_wf
def dot_S32768x896_S896x896_S32768x896_1_0_0_1_n_n : DotDims S32768x896 S896x896 S32768x896 where
  lhsContracting := [1]
  rhsContracting := [0]
  lhsNonContracting := [0]
  rhsNonContracting := [1]
  lhsBatch := []
  rhsBatch := []
  wf := dot_S32768x896_S896x896_S32768x896_1_0_0_1_n_n_wf

class Facts : Prop extends Facts₀ where

variable [Facts]
-- ==== Proof.BlockDiagSpec.lean ====
/-
  The result both programs compute, written once as a function of the argument arrays.

  The 4096 columns of x are cut into eight consecutive segments of widths 128, 128, 384, 384, 640, 640, 896, 896,
  starting at columns 0, 128, 256, 640, 1024, 1664, 2304, 3200. Segment l of the result is the segment-l columns of x
  times the transpose of the square matrix W_l:
      out[n, s_l + j] = Σ_k x[n, s_l + k] · W_l[j, k],
  and the result is the eight segments laid side by side along the columns: x times a block-diagonal matrix whose
  diagonal blocks are the transposes W_lᵀ. Both programs compute exactly this sum over k, term by term in this order,
  so no law of arithmetic (and no finiteness of the inputs) is needed to join them.
-/
import Idealize.ShloMosaic.PureOps.Ideal.Laws
import Idealize.ShloMosaic.Lib.ValueIdx
import Idealize.ShloMosaic.Lib.Pipeline.Value

noncomputable section

open scoped BigOperators

namespace Cert.BlockDiag

open Idealize.ShloMosaic Idealize.ShloMosaic.ValueIdx

/-- Entry (n, j) of one segment: row n of x over columns s … s + w − 1, against row j of the w×w matrix W
    (that is, column j of its transpose). -/
def segAt (s w : Nat) (hs : s + w ≤ 4096) (X : FVec Ideal ⟨2, ![32768, 4096]⟩ .f32) (W : FVec Ideal ⟨2, ![w, w]⟩ .f32)
    (n : Fin 32768) (j : Fin w) : Ideal .f32 :=
  ∑ k : Fin w, X (ix2 n ⟨s + k.val, by have := k.isLt; omega⟩) * W (ix2 j k)

/-- One segment as an array of 32768 rows and w columns. -/
def seg (s w : Nat) (hs : s + w ≤ 4096) (X : FVec Ideal ⟨2, ![32768, 4096]⟩ .f32) (W : FVec Ideal ⟨2, ![w, w]⟩ .f32) :
    FVec Ideal ⟨2, ![32768, w]⟩ .f32 :=
  fun i => segAt s w hs X W (i 0) (i 1)

theorem seg_apply (s w : Nat) (hs : s + w ≤ 4096) (X : FVec Ideal ⟨2, ![32768, 4096]⟩ .f32) (W : FVec Ideal ⟨2, ![w, w]⟩ .f32)
    (n : Fin 32768) (j : Fin w) : seg s w hs X W (ix2 n j) = segAt s w hs X W n j := rfl

/-- The eight segment shapes laid side by side along the columns fill the 4096 columns exactly. -/
theorem shapes_concatenate :
    Shape.Concatenates [⟨2, ![32768, 128]⟩, ⟨2, ![32768, 128]⟩, ⟨2, ![32768, 384]⟩, ⟨2, ![32768, 384]⟩,
      ⟨2, ![32768, 640]⟩, ⟨2, ![32768, 640]⟩, ⟨2, ![32768, 896]⟩, ⟨2, ![32768, 896]⟩] ⟨2, ![32768, 4096]⟩ 1 := by decide

/-- The eight segments, each with its shape, in column order. -/
def segments (X : FVec Ideal ⟨2, ![32768, 4096]⟩ .f32)
    (W0 W1 : FVec Ideal ⟨2, ![128, 128]⟩ .f32) (W2 W3 : FVec Ideal ⟨2, ![384, 384]⟩ .f32)
    (W4 W5 : FVec Ideal ⟨2, ![640, 640]⟩ .f32) (W6 W7 : FVec Ideal ⟨2, ![896, 896]⟩ .f32) :
    List ((s : Shape) × (s.Idx → Ideal .f32)) :=
  [⟨⟨2, ![32768, 128]⟩, seg 0 128 (by omega) X W0⟩, ⟨⟨2, ![32768, 128]⟩, seg 128 128 (by omega) X W1⟩,
   ⟨⟨2, ![32768, 384]⟩, seg 256 384 (by omega) X W2⟩, ⟨⟨2, ![32768, 384]⟩, seg 640 384 (by omega) X W3⟩,
   ⟨⟨2, ![32768, 640]⟩, seg 1024 640 (by omega) X W4⟩, ⟨⟨2, ![32768, 640]⟩, seg 1664 640 (by omega) X W5⟩,
   ⟨⟨2, ![32768, 896]⟩, seg 2304 896 (by omega) X W6⟩, ⟨⟨2, ![32768, 896]⟩, seg 3200 896 (by omega) X W7⟩]

/-- The whole result: the eight segments side by side along the columns. -/
def result (X : FVec Ideal ⟨2, ![32768, 4096]⟩ .f32)
    (W0 W1 : FVec Ideal ⟨2, ![128, 128]⟩ .f32) (W2 W3 : FVec Ideal ⟨2, ![384, 384]⟩ .f32)
    (W4 W5 : FVec Ideal ⟨2, ![640, 640]⟩ .f32) (W6 W7 : FVec Ideal ⟨2, ![896, 896]⟩ .f32) :
    FVec Ideal ⟨2, ![32768, 4096]⟩ .f32 :=
  concatenate ⟨2, ![32768, 4096]⟩ 1 (segments X W0 W1 W2 W3 W4 W5 W6 W7) shapes_concatenate

section Segments

variable (X : FVec Ideal ⟨2, ![32768, 4096]⟩ .f32)
  (W0 W1 : FVec Ideal ⟨2, ![128, 128]⟩ .f32) (W2 W3 : FVec Ideal ⟨2, ![384, 384]⟩ .f32)
  (W4 W5 : FVec Ideal ⟨2, ![640, 640]⟩ .f32) (W6 W7 : FVec Ideal ⟨2, ![896, 896]⟩ .f32)

/-- The result at column s + j, for s the start of a segment and j a column inside it, is that segment at column j:
    reading a side-by-side arrangement at a column finds the piece whose span holds the column. -/
theorem result_seg0 (n : Fin 32768) (j : Fin 128) (c : Fin 4096) (hc : c.val = 0 + j.val) :
    result X W0 W1 W2 W3 W4 W5 W6 W7 (ix2 n c) = segAt 0 128 (by omega) X W0 n j := by
  unfold result
  refine (concatenate_apply_piece 1 (segments X W0 W1 W2 W3 W4 W5 W6 W7) shapes_concatenate (ix2 n c) 0 (by show (0 : Nat) < 8; omega)
    ⟨2, ![32768, 128]⟩ (seg 0 128 (by omega) X W0) rfl rfl 0 rfl (ix2 n j) ?_ ?_).trans (seg_apply ..)
  · intro b hb
    match b with
    | ⟨0, _⟩ => rfl
    | ⟨1, _⟩ => exact absurd rfl hb
  · exact hc.symm

theorem result_seg1 (n : Fin 32768) (j : Fin 128) (c : Fin 4096) (hc : c.val = 128 + j.val) :
    result X W0 W1 W2 W3 W4 W5 W6 W7 (ix2 n c) = segAt 128 128 (by omega) X W1 n j := by
  unfold result
  refine (concatenate_apply_piece 1 (segments X W0 W1 W2 W3 W4 W5 W6 W7) shapes_concatenate (ix2 n c) 1 (by show (1 : Nat) < 8; omega)
    ⟨2, ![32768, 128]⟩ (seg 128 128 (by omega) X W1) rfl rfl 128 rfl (ix2 n j) ?_ ?_).trans (seg_apply ..)
  · intro b hb
    match b with
    | ⟨0, _⟩ => rfl
    | ⟨1, _⟩ => exact absurd rfl hb
  · exact hc.symm

theorem result_seg2 (n : Fin 32768) (j : Fin 384) (c : Fin 4096) (hc : c.val = 256 + j.val) :
    result X W0 W1 W2 W3 W4 W5 W6 W7 (ix2 n c) = segAt 256 384 (by omega) X W2 n j := by
  unfold result
  refine (concatenate_apply_piece 1 (segments X W0 W1 W2 W3 W4 W5 W6 W7) shapes_concatenate (ix2 n c) 2 (by show (2 : Nat) < 8; omega)
    ⟨2, ![32768, 384]⟩ (seg 256 384 (by omega) X W2) rfl rfl 256 rfl (ix2 n j) ?_ ?_).trans (seg_apply ..)
  · intro b hb
    match b with
    | ⟨0, _⟩ => rfl
    | ⟨1, _⟩ => exact absurd rfl hb
  · exact hc.symm

theorem result_seg3 (n : Fin 32768) (j : Fin 384) (c : Fin 4096) (hc : c.val = 640 + j.val) :
    result X W0 W1 W2 W3 W4 W5 W6 W7 (ix2 n c) = segAt 640 384 (by omega) X W3 n j := by
  unfold result
  refine (concatenate_apply_piece 1 (segments X W0 W1 W2 W3 W4 W5 W6 W7) shapes_concatenate (ix2 n c) 3 (by show (3 : Nat) < 8; omega)
    ⟨2, ![32768, 384]⟩ (seg 640 384 (by omega) X W3) rfl rfl 640 rfl (ix2 n j) ?_ ?_).trans (seg_apply ..)
  · intro b hb
    match b with
    | ⟨0, _⟩ => rfl
    | ⟨1, _⟩ => exact absurd rfl hb
  · exact hc.symm

theorem result_seg4 (n : Fin 32768) (j : Fin 640) (c : Fin 4096) (hc : c.val = 1024 + j.val) :
    result X W0 W1 W2 W3 W4 W5 W6 W7 (ix2 n c) = segAt 1024 640 (by omega) X W4 n j := by
  unfold result
  refine (concatenate_apply_piece 1 (segments X W0 W1 W2 W3 W4 W5 W6 W7) shapes_concatenate (ix2 n c) 4 (by show (4 : Nat) < 8; omega)
    ⟨2, ![32768, 640]⟩ (seg 1024 640 (by omega) X W4) rfl rfl 1024 rfl (ix2 n j) ?_ ?_).trans (seg_apply ..)
  · intro b hb
    match b with
    | ⟨0, _⟩ => rfl
    | ⟨1, _⟩ => exact absurd rfl hb
  · exact hc.symm

theorem result_seg5 (n : Fin 32768) (j : Fin 640) (c : Fin 4096) (hc : c.val = 1664 + j.val) :
    result X W0 W1 W2 W3 W4 W5 W6 W7 (ix2 n c) = segAt 1664 640 (by omega) X W5 n j := by
  unfold result
  refine (concatenate_apply_piece 1 (segments X W0 W1 W2 W3 W4 W5 W6 W7) shapes_concatenate (ix2 n c) 5 (by show (5 : Nat) < 8; omega)
    ⟨2, ![32768, 640]⟩ (seg 1664 640 (by omega) X W5) rfl rfl 1664 rfl (ix2 n j) ?_ ?_).trans (seg_apply ..)
  · intro b hb
    match b with
    | ⟨0, _⟩ => rfl
    | ⟨1, _⟩ => exact absurd rfl hb
  · exact hc.symm

theorem result_seg6 (n : Fin 32768) (j : Fin 896) (c : Fin 4096) (hc : c.val = 2304 + j.val) :
    result X W0 W1 W2 W3 W4 W5 W6 W7 (ix2 n c) = segAt 2304 896 (by omega) X W6 n j := by
  unfold result
  refine (concatenate_apply_piece 1 (segments X W0 W1 W2 W3 W4 W5 W6 W7) shapes_concatenate (ix2 n c) 6 (by show (6 : Nat) < 8; omega)
    ⟨2, ![32768, 896]⟩ (seg 2304 896 (by omega) X W6) rfl rfl 2304 rfl (ix2 n j) ?_ ?_).trans (seg_apply ..)
  · intro b hb
    match b with
    | ⟨0, _⟩ => rfl
    | ⟨1, _⟩ => exact absurd rfl hb
  · exact hc.symm

theorem result_seg7 (n : Fin 32768) (j : Fin 896) (c : Fin 4096) (hc : c.val = 3200 + j.val) :
    result X W0 W1 W2 W3 W4 W5 W6 W7 (ix2 n c) = segAt 3200 896 (by omega) X W7 n j := by
  unfold result
  refine (concatenate_apply_piece 1 (segments X W0 W1 W2 W3 W4 W5 W6 W7) shapes_concatenate (ix2 n c) 7 (by show (7 : Nat) < 8; omega)
    ⟨2, ![32768, 896]⟩ (seg 3200 896 (by omega) X W7) rfl rfl 3200 rfl (ix2 n j) ?_ ?_).trans (seg_apply ..)
  · intro b hb
    match b with
    | ⟨0, _⟩ => rfl
    | ⟨1, _⟩ => exact absurd rfl hb
  · exact hc.symm

/-- Every column lies in exactly one of the eight segments: it is some segment's start plus a column inside it. -/
theorem column_cases (c : Fin 4096) :
    (∃ j : Fin 128, c.val = 0 + j.val) ∨ (∃ j : Fin 128, c.val = 128 + j.val) ∨ (∃ j : Fin 384, c.val = 256 + j.val)
    ∨ (∃ j : Fin 384, c.val = 640 + j.val) ∨ (∃ j : Fin 640, c.val = 1024 + j.val) ∨ (∃ j : Fin 640, c.val = 1664 + j.val)
    ∨ (∃ j : Fin 896, c.val = 2304 + j.val) ∨ (∃ j : Fin 896, c.val = 3200 + j.val) := by
  have hc := c.isLt
  by_cases h0 : c.val < 128
  · exact Or.inl ⟨⟨c.val, h0⟩, by simp⟩
  by_cases h1 : c.val < 256
  · exact Or.inr (Or.inl ⟨⟨c.val - 128, by omega⟩, by simp; omega⟩)
  by_cases h2 : c.val < 640
  · exact Or.inr (Or.inr (Or.inl ⟨⟨c.val - 256, by omega⟩, by simp; omega⟩))
  by_cases h3 : c.val < 1024
  · exact Or.inr (Or.inr (Or.inr (Or.inl ⟨⟨c.val - 640, by omega⟩, by simp; omega⟩)))
  by_cases h4 : c.val < 1664
  · exact Or.inr (Or.inr (Or.inr (Or.inr (Or.inl ⟨⟨c.val - 1024, by omega⟩, by simp; omega⟩))))
  by_cases h5 : c.val < 2304
  · exact Or.inr (Or.inr (Or.inr (Or.inr (Or.inr (Or.inl ⟨⟨c.val - 1664, by omega⟩, by simp; omega⟩)))))
  by_cases h6 : c.val < 3200
  · exact Or.inr (Or.inr (Or.inr (Or.inr (Or.inr (Or.inr (Or.inl ⟨⟨c.val - 2304, by omega⟩, by simp; omega⟩))))))
  · exact Or.inr (Or.inr (Or.inr (Or.inr (Or.inr (Or.inr (Or.inr ⟨⟨c.val - 3200, by omega⟩, by simp; omega⟩))))))

end Segments

end Cert.BlockDiag

end
-- ==== Proof.ReferenceResult.lean ====
/-
  The reference's result is the block-diagonal product.

  The reference slices x into its eight column segments, multiplies each by the transposed weight and joins the
  products along the columns. Read at an index, the product of segment l at (n, j) is the sum over k of
  x[n, s_l + k] (the slice read at column k) times W_l[j, k] (the transpose read at (k, j)): the segment of the
  specification, term by term. So the eight joined pieces are the specification's eight segments.
-/
import proofs.«111216_j14791867368254_1_alg».proof.Proof.Gen.ReferenceIdeal.Read
import proofs.«111216_j14791867368254_1_alg».proof.Proof.BlockDiagSpec

noncomputable section

open scoped BigOperators

namespace Cert.BlockDiag.Reference

open Cert.ReferenceIdeal Cert.ReferenceIdeal.Read Idealize.ShloMosaic Idealize.ShloMosaic.ValueIdx

variable (x0 : (⟨S32768x4096, .f32⟩ : BufTy).Contents (Elt Ideal))

/-- Product number 0: columns 0 … 127 of x against the transpose of a 128×128 matrix. -/
theorem piece0 (w : (⟨S128x128, .f32⟩ : BufTy).Contents (Elt Ideal)) :
    val_main_v2 (F := Ideal) x0 w = seg 0 128 (by omega) x0 w := by
  funext i
  obtain ⟨n, j, rfl⟩ : ∃ (n : Fin 32768) (j : Fin 128), i = ix2 n j := ⟨i 0, i 1, eq_ix2 i⟩
  rw [val_main_v2_apply, seg_apply]
  unfold segAt
  refine Finset.sum_congr rfl fun k _ => ?_
  rw [val_main_v0_apply, val_main_v1_apply]
  congr 2
  · funext a; apply Fin.ext
    match a with
    | ⟨0, _⟩ => rfl
    | ⟨1, _⟩ => exact (Nat.zero_add _).symm
  · funext a; apply Fin.ext
    match a with
    | ⟨0, _⟩ => rfl
    | ⟨1, _⟩ => rfl

/-- Product number 1: columns 128 … 255 of x against the transpose of a 128×128 matrix. -/
theorem piece1 (w : (⟨S128x128, .f32⟩ : BufTy).Contents (Elt Ideal)) :
    val_main_v5 (F := Ideal) x0 w = seg 128 128 (by omega) x0 w := by
  funext i
  obtain ⟨n, j, rfl⟩ : ∃ (n : Fin 32768) (j : Fin 128), i = ix2 n j := ⟨i 0, i 1, eq_ix2 i⟩
  rw [val_main_v5_apply, seg_apply]
  unfold segAt
  refine Finset.sum_congr rfl fun k _ => ?_
  rw [val_main_v3_apply, val_main_v4_apply]
  congr 2
  · funext a; apply Fin.ext
    match a with
    | ⟨0, _⟩ => rfl
    | ⟨1, _⟩ => rfl
  · funext a; apply Fin.ext
    match a with
    | ⟨0, _⟩ => rfl
    | ⟨1, _⟩ => rfl

/-- Product number 2: columns 256 … 639 of x against the transpose of a 384×384 matrix. -/
theorem piece2 (w : (⟨S384x384, .f32⟩ : BufTy).Contents (Elt Ideal)) :
    val_main_v8 (F := Ideal) x0 w = seg 256 384 (by omega) x0 w := by
  funext i
  obtain ⟨n, j, rfl⟩ : ∃ (n : Fin 32768) (j : Fin 384), i = ix2 n j := ⟨i 0, i 1, eq_ix2 i⟩
  rw [val_main_v8_apply, seg_apply]
  unfold segAt
  refine Finset.sum_congr rfl fun k _ => ?_
  rw [val_main_v6_apply, val_main_v7_apply]
  congr 2
  · funext a; apply Fin.ext
    match a with
    | ⟨0, _⟩ => rfl
    | ⟨1, _⟩ => rfl
  · funext a; apply Fin.ext
    match a with
    | ⟨0, _⟩ => rfl
    | ⟨1, _⟩ => rfl

/-- Product number 3: columns 640 … 1023 of x against the transpose of a 384×384 matrix. -/
theorem piece3 (w : (⟨S384x384, .f32⟩ : BufTy).Contents (Elt Ideal)) :
    val_main_v11 (F := Ideal) x0 w = seg 640 384 (by omega) x0 w := by
  funext i
  obtain ⟨n, j, rfl⟩ : ∃ (n : Fin 32768) (j : Fin 384), i = ix2 n j := ⟨i 0, i 1, eq_ix2 i⟩
  rw [val_main_v11_apply, seg_apply]
  unfold segAt
  refine Finset.sum_congr rfl fun k _ => ?_
  rw [val_main_v9_apply, val_main_v10_apply]
  congr 2
  · funext a; apply Fin.ext
    match a with
    | ⟨0, _⟩ => rfl
    | ⟨1, _⟩ => rfl
  · funext a; apply Fin.ext
    match a with
    | ⟨0, _⟩ => rfl
    | ⟨1, _⟩ => rfl

/-- Product number 4: columns 1024 … 1663 of x against the transpose of a 640×640 matrix. -/
theorem piece4 (w : (⟨S640x640, .f32⟩ : BufTy).Contents (Elt Ideal)) :
    val_main_v14 (F := Ideal) x0 w = seg 1024 640 (by omega) x0 w := by
  funext i
  obtain ⟨n, j, rfl⟩ : ∃ (n : Fin 32768) (j : Fin 640), i = ix2 n j := ⟨i 0, i 1, eq_ix2 i⟩
  rw [val_main_v14_apply, seg_apply]
  unfold segAt
  refine Finset.sum_congr rfl fun k _ => ?_
  rw [val_main_v12_apply, val_main_v13_apply]
  congr 2
  · funext a; apply Fin.ext
    match a with
    | ⟨0, _⟩ => rfl
    | ⟨1, _⟩ => rfl
  · funext a; apply Fin.ext
    match a with
    | ⟨0, _⟩ => rfl
    | ⟨1, _⟩ => rfl

/-- Product number 5: columns 1664 … 2303 of x against the transpose of a 640×640 matrix. -/
theorem piece5 (w : (⟨S640x640, .f32⟩ : BufTy).Contents (Elt Ideal)) :
    val_main_v17 (F := Ideal) x0 w = seg 1664 640 (by omega) x0 w := by
  funext i
  obtain ⟨n, j, rfl⟩ : ∃ (n : Fin 32768) (j : Fin 640), i = ix2 n j := ⟨i 0, i 1, eq_ix2 i⟩
  rw [val_main_v17_apply, seg_apply]
  unfold segAt
  refine Finset.sum_congr rfl fun k _ => ?_
  rw [val_main_v15_apply, val_main_v16_apply]
  congr 2
  · funext a; apply Fin.ext
    match a with
    | ⟨0, _⟩ => rfl
    | ⟨1, _⟩ => rfl
  · funext a; apply Fin.ext
    match a with
    | ⟨0, _⟩ => rfl
    | ⟨1, _⟩ => rfl

/-- Product number 6: columns 2304 … 3199 of x against the transpose of a 896×896 matrix. -/
theorem piece6 (w : (⟨S896x896, .f32⟩ : BufTy).Contents (Elt Ideal)) :
    val_main_v20 (F := Ideal) x0 w = seg 2304 896 (by omega) x0 w := by
  funext i
  obtain ⟨n, j, rfl⟩ : ∃ (n : Fin 32768) (j : Fin 896), i = ix2 n j := ⟨i 0, i 1, eq_ix2 i⟩
  rw [val_main_v20_apply, seg_apply]
  unfold segAt
  refine Finset.sum_congr rfl fun k _ => ?_
  rw [val_main_v18_apply, val_main_v19_apply]
  congr 2
  · funext a; apply Fin.ext
    match a with
    | ⟨0, _⟩ => rfl
    | ⟨1, _⟩ => rfl
  · funext a; apply Fin.ext
    match a with
    | ⟨0, _⟩ => rfl
    | ⟨1, _⟩ => rfl

/-- Product number 7: columns 3200 … 4095 of x against the transpose of a 896×896 matrix. -/
theorem piece7 (w : (⟨S896x896, .f32⟩ : BufTy).Contents (Elt Ideal)) :
    val_main_v23 (F := Ideal) x0 w = seg 3200 896 (by omega) x0 w := by
  funext i
  obtain ⟨n, j, rfl⟩ : ∃ (n : Fin 32768) (j : Fin 896), i = ix2 n j := ⟨i 0, i 1, eq_ix2 i⟩
  rw [val_main_v23_apply, seg_apply]
  unfold segAt
  refine Finset.sum_congr rfl fun k _ => ?_
  rw [val_main_v21_apply, val_main_v22_apply]
  congr 2
  · funext a; apply Fin.ext
    match a with
    | ⟨0, _⟩ => rfl
    | ⟨1, _⟩ => rfl
  · funext a; apply Fin.ext
    match a with
    | ⟨0, _⟩ => rfl
    | ⟨1, _⟩ => rfl

/-- The reference's result, as its run states it, is the specification's result of the same arguments. -/
theorem reference_eq (x1 x2 : (⟨S128x128, .f32⟩ : BufTy).Contents (Elt Ideal)) (x3 x4 : (⟨S384x384, .f32⟩ : BufTy).Contents (Elt Ideal))
    (x5 x6 : (⟨S640x640, .f32⟩ : BufTy).Contents (Elt Ideal)) (x7 x8 : (⟨S896x896, .f32⟩ : BufTy).Contents (Elt Ideal)) :
    val_main_v24 (F := Ideal) x0 x1 x2 x3 x4 x5 x6 x7 x8 = result x0 x1 x2 x3 x4 x5 x6 x7 x8 := by
  unfold val_main_v24 result segments
  rw [piece0, piece1, piece2, piece3, piece4, piece5, piece6, piece7]

end Cert.BlockDiag.Reference

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.BodyBlock.lean ====
/-
  One grid point of the kernel: what the body leaves in the output's row block.

  The body loads a block of 256 rows of x and the eight (already transposed) weight matrices, and for each column
  segment stores the product of the block's segment columns by that segment's matrix into the same columns of the
  output block. Read at row r and column s_l + j the output block therefore holds
      Σ_k X[r, s_l + k] · B_l[k, j],
  where X is the loaded row block and B_l the loaded matrix (the narrowing to bf16 before the product changes nothing
  at the ideal values, and the product into a zero accumulator is the plain sum over the contracted index). The eight
  stored rectangles are disjoint column ranges that together fill the block, so a function of the block's indices
  that has these eight readings IS the block.
-/
import proofs.«111216_j14791867368254_1_alg».proof.Proof.Gen.KernelIdeal.Frame
import proofs.«111216_j14791867368254_1_alg».proof.Proof.LibMatmulPlain
import Idealize.ShloMosaic.Lib.Pipeline.Value
import Idealize.ShloMosaic.Lib.ValueIdx
import Idealize.ShloMosaic.PureOps.Ideal.Laws

set_option maxRecDepth 16384

noncomputable section

open scoped BigOperators

namespace Cert.BlockDiag.Body

open Cert.KernelIdeal Cert.KernelIdeal.Gen Idealize.ShloMosaic Idealize.ShloMosaic.ValueIdx Idealize.ShloMosaic.TcCoe
  Idealize.ShloMosaic.Tactic Idealize.SL.Sem

theorem zero_offsets : (![0, 0] : Fin 2 → Nat) = fun _ => 0 := funext fun a => by fin_cases a <;> rfl

/-- Columns s … s + w − 1 of a 256-row block, narrowed, times a w×w matrix, narrowed, into the zero accumulator: at
    (r, j) the sum over k of X[r, s + k] · B[k, j]. -/
theorem columns_times {s w : Nat} (hs : s + w ≤ 4096) (hsl : S256x4096.Slices ![0, s] ⟨2, ![256, w]⟩)
    (hc : (⟨2, ![w, w]⟩ : Shape).ShapeCasts ⟨2, ![w, w]⟩) (hb : FTy.bf16.bits < FTy.f32.bits)
    (d : DotDims ⟨2, ![256, w]⟩ ⟨2, ![w, w]⟩ ⟨2, ![256, w]⟩) (hd : d = DotDims.plain 256 w w)
    (X : FVec Ideal S256x4096 .f32) (B : FVec Ideal ⟨2, ![w, w]⟩ .f32) (r : Fin 256) (j : Fin w) :
    matmul d none (truncf .bf16 (extractStridedSlice ⟨2, ![256, w]⟩ ![0, s] X hsl) hb)
        (truncf .bf16 (shapeCast ⟨2, ![w, w]⟩ B hc) hb) (constant ⟨2, ![256, w]⟩ .f32 0x00000000#32) (ix2 r j)
      = ∑ k : Fin w, X (ix2 r ⟨s + k.val, by have := k.isLt; omega⟩) * B (ix2 k j) := by
  subst hd
  refine (LibMatmulPlain.matmul_plain_zero_apply none _ _ r j).trans ?_
  refine Finset.sum_congr rfl fun k _ => ?_
  show extractStridedSlice ⟨2, ![256, w]⟩ ![0, s] X hsl (ix2 r k) * shapeCast ⟨2, ![w, w]⟩ B hc (ix2 k j) = _
  rw [shapeCast_self]
  congr 1
  exact extractStridedSlice_apply ![0, s] X hsl (ix2 r k) _ fun a => match a with
    | ⟨0, _⟩ => (Nat.zero_add _).symm
    | ⟨1, _⟩ => rfl

/-! The eight stored values, each read at (r, j). -/

section Stored
variable (x0 : Vec Ideal S256x4096 .f32)

theorem stored0 (w : Vec Ideal S128x128 .f32) (r : Fin 256) (j : Fin 128) :
    k0_pay5 (F := Ideal) x0 w (ix2 r j) = ∑ k : Fin 128, x0 (ix2 r ⟨0 + k.val, by have := k.isLt; omega⟩) * w (ix2 k j) := by
  unfold k0_pay5
  exact columns_times (s := 0) (w := 128) (by omega) _ _ _ _ rfl x0 w r j

theorem stored1 (w : Vec Ideal S128x128 .f32) (r : Fin 256) (j : Fin 128) :
    k0_pay6 (F := Ideal) x0 w (ix2 r j) = ∑ k : Fin 128, x0 (ix2 r ⟨128 + k.val, by have := k.isLt; omega⟩) * w (ix2 k j) := by
  unfold k0_pay6
  exact columns_times (s := 128) (w := 128) (by omega) _ _ _ _ rfl x0 w r j

theorem stored2 (w : Vec Ideal S384x384 .f32) (r : Fin 256) (j : Fin 384) :
    k0_pay7 (F := Ideal) x0 w (ix2 r j) = ∑ k : Fin 384, x0 (ix2 r ⟨256 + k.val, by have := k.isLt; omega⟩) * w (ix2 k j) := by
  unfold k0_pay7
  exact columns_times (s := 256) (w := 384) (by omega) _ _ _ _ rfl x0 w r j

theorem stored3 (w : Vec Ideal S384x384 .f32) (r : Fin 256) (j : Fin 384) :
    k0_pay8 (F := Ideal) x0 w (ix2 r j) = ∑ k : Fin 384, x0 (ix2 r ⟨640 + k.val, by have := k.isLt; omega⟩) * w (ix2 k j) := by
  unfold k0_pay8
  exact columns_times (s := 640) (w := 384) (by omega) _ _ _ _ rfl x0 w r j

theorem stored4 (w : Vec Ideal S640x640 .f32) (r : Fin 256) (j : Fin 640) :
    k0_pay1 (F := Ideal) (k0_pay9 (F := Ideal) x0) w (ix2 r j) = ∑ k : Fin 640, x0 (ix2 r ⟨1024 + k.val, by have := k.isLt; omega⟩) * w (ix2 k j) := by
  unfold k0_pay1 k0_pay9
  exact columns_times (s := 1024) (w := 640) (by omega) _ _ _ _ rfl x0 w r j

theorem stored5 (w : Vec Ideal S640x640 .f32) (r : Fin 256) (j : Fin 640) :
    k0_pay2 (F := Ideal) x0 w (ix2 r j) = ∑ k : Fin 640, x0 (ix2 r ⟨1664 + k.val, by have := k.isLt; omega⟩) * w (ix2 k j) := by
  unfold k0_pay2
  exact columns_times (s := 1664) (w := 640) (by omega) _ _ _ _ rfl x0 w r j

theorem stored6 (w : Vec Ideal S896x896 .f32) (r : Fin 256) (j : Fin 896) :
    k0_pay3 (F := Ideal) x0 w (ix2 r j) = ∑ k : Fin 896, x0 (ix2 r ⟨2304 + k.val, by have := k.isLt; omega⟩) * w (ix2 k j) := by
  unfold k0_pay3
  exact columns_times (s := 2304) (w := 896) (by omega) _ _ _ _ rfl x0 w r j

theorem stored7 (w : Vec Ideal S896x896 .f32) (r : Fin 256) (j : Fin 896) :
    k0_pay4 (F := Ideal) x0 w (ix2 r j) = ∑ k : Fin 896, x0 (ix2 r ⟨3200 + k.val, by have := k.isLt; omega⟩) * w (ix2 k j) := by
  unfold k0_pay4
  exact columns_times (s := 3200) (w := 896) (by omega) _ _ _ _ rfl x0 w r j

end Stored

/-- A stored rectangle of w columns starting at column s places its own index (r, j) at the block's (r, s + j). -/
theorem place (s w : Nat) (inb : ∀ a, (![0, s] : Fin 2 → Nat) a + (![256, w] : Fin 2 → Nat) a ≤ S256x4096.size a)
    (r : Fin 256) (j : Fin w) (h : s + j.val < 4096) :
    (Rect.unit (s := S256x4096) ![0, s] ![256, w] inb).emb (ix2 r j) = ix2 r ⟨s + j.val, h⟩ := by
  funext a; apply Fin.ext
  match a with
  | ⟨0, _⟩ => show 0 + 1 * r.val = r.val; omega
  | ⟨1, _⟩ => show s + 1 * j.val = s + j.val; omega

/-- The pieces the body's run leaves, written out: the eight stored rectangles with their values, last store first. -/
theorem pieces (c : Dev nD) (i : grid0.Coords) (arg1 : Memref sig .tc .vmem S256x4096 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S384x384 .f32) (harg4 : arg4.IsWhole) (arg5 : Memref sig .tc .vmem S384x384 .f32) (harg5 : arg5.IsWhole) (arg6 : Memref sig .tc .vmem S640x640 .f32) (harg6 : arg6.IsWhole) (arg7 : Memref sig .tc .vmem S640x640 .f32) (harg7 : arg7.IsWhole) (arg8 : Memref sig .tc .vmem S896x896 .f32) (harg8 : arg8.IsWhole) (arg9 : Memref sig .tc .vmem S896x896 .f32) (harg9 : arg9.IsWhole) (arg10 : Memref sig .tc .vmem S256x4096 .f32) (harg10 : arg10.IsWhole)
    (x0 : Vec Ideal S256x4096 .f32) (x1 : Vec Ideal S128x128 .f32) (x2 : Vec Ideal S128x128 .f32) (x3 : Vec Ideal S384x384 .f32) (x4 : Vec Ideal S384x384 .f32) (x5 : Vec Ideal S640x640 .f32) (x6 : Vec Ideal S640x640 .f32) (x7 : Vec Ideal S896x896 .f32) (x8 : Vec Ideal S896x896 .f32) :
    (kernelRun0_A (F := Ideal) c i arg1 harg1 arg2 harg2 arg3 harg3 arg4 harg4 arg5 harg5 arg6 harg6 arg7 harg7 arg8 harg8 arg9 harg9 arg10 harg10 x0 x1 x2 x3 x4 x5 x6 x7 x8).1 =
      [⟨Rect.unit ![0, 3200] ![256, 896] inb_S256x4096_S256x896_0_3200, k0_pay4 x0 x8⟩,
       ⟨Rect.unit ![0, 2304] ![256, 896] inb_S256x4096_S256x896_0_2304, k0_pay3 x0 x7⟩,
       ⟨Rect.unit ![0, 1664] ![256, 640] inb_S256x4096_S256x640_0_1664, k0_pay2 x0 x6⟩,
       ⟨Rect.unit ![0, 1024] ![256, 640] inb_S256x4096_S256x640_0_1024, k0_pay1 (k0_pay9 x0) x5⟩,
       ⟨Rect.unit ![0, 640] ![256, 384] inb_S256x4096_S256x384_0_640, k0_pay8 x0 x4⟩,
       ⟨Rect.unit ![0, 256] ![256, 384] inb_S256x4096_S256x384_0_256, k0_pay7 x0 x3⟩,
       ⟨Rect.unit ![0, 128] ![256, 128] inb_S256x4096_S256x128_0_128, k0_pay6 x0 x2⟩,
       ⟨Rect.unit ![0, 0] ![256, 128] inb_S256x4096_S256x128_0_0, k0_pay5 x0 x1⟩] := by
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread,
    View.ld_unit_zero (S := S256x4096) zero_offsets, View.ld_unit_zero (S := S128x128) zero_offsets,
    View.ld_unit_zero (S := S384x384) zero_offsets, View.ld_unit_zero (S := S640x640) zero_offsets,
    View.ld_unit_zero (S := S896x896) zero_offsets]

/-- THE OUTPUT BLOCK AT ONE POINT: any function G of the block's indices that reads, on each of the eight column
    segments, as that segment's sum of products of the loaded values, is what the body leaves in the output block. -/
theorem block_eq (c : Dev nD) (i : grid0.Coords) (arg1 : Memref sig .tc .vmem S256x4096 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S384x384 .f32) (harg4 : arg4.IsWhole) (arg5 : Memref sig .tc .vmem S384x384 .f32) (harg5 : arg5.IsWhole) (arg6 : Memref sig .tc .vmem S640x640 .f32) (harg6 : arg6.IsWhole) (arg7 : Memref sig .tc .vmem S640x640 .f32) (harg7 : arg7.IsWhole) (arg8 : Memref sig .tc .vmem S896x896 .f32) (harg8 : arg8.IsWhole) (arg9 : Memref sig .tc .vmem S896x896 .f32) (harg9 : arg9.IsWhole) (arg10 : Memref sig .tc .vmem S256x4096 .f32) (harg10 : arg10.IsWhole)
    (x0 : Vec Ideal S256x4096 .f32) (x1 : Vec Ideal S128x128 .f32) (x2 : Vec Ideal S128x128 .f32) (x3 : Vec Ideal S384x384 .f32) (x4 : Vec Ideal S384x384 .f32) (x5 : Vec Ideal S640x640 .f32) (x6 : Vec Ideal S640x640 .f32) (x7 : Vec Ideal S896x896 .f32) (x8 : Vec Ideal S896x896 .f32) (G : S256x4096.Idx → Ideal .f32)
    (h0 : ∀ (r : Fin 256) (j : Fin 128), G (ix2 r ⟨0 + j.val, by have := j.isLt; omega⟩) = ∑ k : Fin 128, x0 (ix2 r ⟨0 + k.val, by have := k.isLt; omega⟩) * x1 (ix2 k j))
    (h1 : ∀ (r : Fin 256) (j : Fin 128), G (ix2 r ⟨128 + j.val, by have := j.isLt; omega⟩) = ∑ k : Fin 128, x0 (ix2 r ⟨128 + k.val, by have := k.isLt; omega⟩) * x2 (ix2 k j))
    (h2 : ∀ (r : Fin 256) (j : Fin 384), G (ix2 r ⟨256 + j.val, by have := j.isLt; omega⟩) = ∑ k : Fin 384, x0 (ix2 r ⟨256 + k.val, by have := k.isLt; omega⟩) * x3 (ix2 k j))
    (h3 : ∀ (r : Fin 256) (j : Fin 384), G (ix2 r ⟨640 + j.val, by have := j.isLt; omega⟩) = ∑ k : Fin 384, x0 (ix2 r ⟨640 + k.val, by have := k.isLt; omega⟩) * x4 (ix2 k j))
    (h4 : ∀ (r : Fin 256) (j : Fin 640), G (ix2 r ⟨1024 + j.val, by have := j.isLt; omega⟩) = ∑ k : Fin 640, x0 (ix2 r ⟨1024 + k.val, by have := k.isLt; omega⟩) * x5 (ix2 k j))
    (h5 : ∀ (r : Fin 256) (j : Fin 640), G (ix2 r ⟨1664 + j.val, by have := j.isLt; omega⟩) = ∑ k : Fin 640, x0 (ix2 r ⟨1664 + k.val, by have := k.isLt; omega⟩) * x6 (ix2 k j))
    (h6 : ∀ (r : Fin 256) (j : Fin 896), G (ix2 r ⟨2304 + j.val, by have := j.isLt; omega⟩) = ∑ k : Fin 896, x0 (ix2 r ⟨2304 + k.val, by have := k.isLt; omega⟩) * x7 (ix2 k j))
    (h7 : ∀ (r : Fin 256) (j : Fin 896), G (ix2 r ⟨3200 + j.val, by have := j.isLt; omega⟩) = ∑ k : Fin 896, x0 (ix2 r ⟨3200 + k.val, by have := k.isLt; omega⟩) * x8 (ix2 k j)) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 x8 = G := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7 x8)]
  funext y
  refine View.canon_apply_of_pieces G _ ?_ y (cover0_A_9 c i arg1 harg1 arg2 harg2 arg3 harg3 arg4 harg4 arg5 harg5 arg6 harg6 arg7 harg7 arg8 harg8 arg9 harg9 arg10 harg10 x0 x1 x2 x3 x4 x5 x6 x7 x8 y)
  intro p hp x
  rw [pieces] at hp
  simp only [List.mem_cons, List.not_mem_nil, or_false] at hp
  rcases hp with rfl | rfl | rfl | rfl | rfl | rfl | rfl | rfl
  · obtain ⟨r, j, rfl⟩ : ∃ (r : Fin 256) (j : Fin 896), x = ix2 r j := ⟨x 0, x 1, eq_ix2 x⟩
    show _ = G ((Rect.unit (s := S256x4096) ![0, 3200] ![256, 896] inb_S256x4096_S256x896_0_3200).emb (ix2 r j))
    rw [place 3200 896 _ r j (by have := j.isLt; omega), h7 r j]
    exact stored7 x0 _ r j
  · obtain ⟨r, j, rfl⟩ : ∃ (r : Fin 256) (j : Fin 896), x = ix2 r j := ⟨x 0, x 1, eq_ix2 x⟩
    show _ = G ((Rect.unit (s := S256x4096) ![0, 2304] ![256, 896] inb_S256x4096_S256x896_0_2304).emb (ix2 r j))
    rw [place 2304 896 _ r j (by have := j.isLt; omega), h6 r j]
    exact stored6 x0 _ r j
  · obtain ⟨r, j, rfl⟩ : ∃ (r : Fin 256) (j : Fin 640), x = ix2 r j := ⟨x 0, x 1, eq_ix2 x⟩
    show _ = G ((Rect.unit (s := S256x4096) ![0, 1664] ![256, 640] inb_S256x4096_S256x640_0_1664).emb (ix2 r j))
    rw [place 1664 640 _ r j (by have := j.isLt; omega), h5 r j]
    exact stored5 x0 _ r j
  · obtain ⟨r, j, rfl⟩ : ∃ (r : Fin 256) (j : Fin 640), x = ix2 r j := ⟨x 0, x 1, eq_ix2 x⟩
    show _ = G ((Rect.unit (s := S256x4096) ![0, 1024] ![256, 640] inb_S256x4096_S256x640_0_1024).emb (ix2 r j))
    rw [place 1024 640 _ r j (by have := j.isLt; omega), h4 r j]
    exact stored4 x0 _ r j
  · obtain ⟨r, j, rfl⟩ : ∃ (r : Fin 256) (j : Fin 384), x = ix2 r j := ⟨x 0, x 1, eq_ix2 x⟩
    show _ = G ((Rect.unit (s := S256x4096) ![0, 640] ![256, 384] inb_S256x4096_S256x384_0_640).emb (ix2 r j))
    rw [place 640 384 _ r j (by have := j.isLt; omega), h3 r j]
    exact stored3 x0 _ r j
  · obtain ⟨r, j, rfl⟩ : ∃ (r : Fin 256) (j : Fin 384), x = ix2 r j := ⟨x 0, x 1, eq_ix2 x⟩
    show _ = G ((Rect.unit (s := S256x4096) ![0, 256] ![256, 384] inb_S256x4096_S256x384_0_256).emb (ix2 r j))
    rw [place 256 384 _ r j (by have := j.isLt; omega), h2 r j]
    exact stored2 x0 _ r j
  · obtain ⟨r, j, rfl⟩ : ∃ (r : Fin 256) (j : Fin 128), x = ix2 r j := ⟨x 0, x 1, eq_ix2 x⟩
    show _ = G ((Rect.unit (s := S256x4096) ![0, 128] ![256, 128] inb_S256x4096_S256x128_0_128).emb (ix2 r j))
    rw [place 128 128 _ r j (by have := j.isLt; omega), h1 r j]
    exact stored1 x0 _ r j
  · obtain ⟨r, j, rfl⟩ : ∃ (r : Fin 256) (j : Fin 128), x = ix2 r j := ⟨x 0, x 1, eq_ix2 x⟩
    show _ = G ((Rect.unit (s := S256x4096) ![0, 0] ![256, 128] inb_S256x4096_S256x128_0_0).emb (ix2 r j))
    rw [place 0 128 _ r j (by have := j.isLt; omega), h0 r j]
    exact stored0 x0 _ r j

end Cert.BlockDiag.Body

end
-- ==== Proof.KernelArray.lean ====
/-
  The kernel's result array is the block-diagonal product.

  Grid point t handles rows 256 t … 256 t + 255: the pipeline hands the body that row block of x and the whole of each
  transposed weight matrix, and writes the body's output block back to the same rows of the result. A transposed
  matrix read at (k, j) is the weight at (j, k), and row r of the block is row 256 t + r of x, so the sum the body
  leaves at (r, s_l + j) is the specification's segment l at row 256 t + r: the output block is the specification's
  result restricted to the point's rows. The 128 row blocks fill the 32768 rows, so the whole array is the result.
-/
import proofs.«111216_j14791867368254_1_alg».proof.Proof.Gen.KernelIdeal.Value
import proofs.«111216_j14791867368254_1_alg».proof.Proof.BlockDiagSpec
import proofs.«111216_j14791867368254_1_alg».proof.Proof.BodyBlock
import Idealize.ShloMosaic.Lib.ValueLayout
import Idealize.ShloMosaic.Lib.StableHlo.Run

set_option maxRecDepth 16384

noncomputable section

open scoped BigOperators

namespace Cert.BlockDiag.Kernel

open Cert.KernelIdeal Cert.KernelIdeal.Gen Cert.KernelIdeal.Value Idealize.ShloMosaic Idealize.ShloMosaic.ValueIdx
  Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- Where each window's block sits at grid point t: the x and result windows at row block t, every weight window at
    its one whole block. -/
theorem index_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem point_lt (t : Fin cfg0.N) : t.val < 128 := by
  have h : cfg0.N = 128 := N_0
  have := t.isLt
  omega

/-- The blocks the pipeline hands the body at point t, each at its literal type: the row block of x and the eight
    transposed weight matrices. -/
abbrev xblk (c : Dev nD) (t : Fin cfg0.N) : Vec Ideal S256x4096 .f32 := iblk m c 0 t
abbrev wblk0 (c : Dev nD) (t : Fin cfg0.N) : Vec Ideal S128x128 .f32 := iblk m c 1 t
abbrev wblk1 (c : Dev nD) (t : Fin cfg0.N) : Vec Ideal S128x128 .f32 := iblk m c 2 t
abbrev wblk2 (c : Dev nD) (t : Fin cfg0.N) : Vec Ideal S384x384 .f32 := iblk m c 3 t
abbrev wblk3 (c : Dev nD) (t : Fin cfg0.N) : Vec Ideal S384x384 .f32 := iblk m c 4 t
abbrev wblk4 (c : Dev nD) (t : Fin cfg0.N) : Vec Ideal S640x640 .f32 := iblk m c 5 t
abbrev wblk5 (c : Dev nD) (t : Fin cfg0.N) : Vec Ideal S640x640 .f32 := iblk m c 6 t
abbrev wblk6 (c : Dev nD) (t : Fin cfg0.N) : Vec Ideal S896x896 .f32 := iblk m c 7 t
abbrev wblk7 (c : Dev nD) (t : Fin cfg0.N) : Vec Ideal S896x896 .f32 := iblk m c 8 t

/-- The x window's block at point t, at (r, c), is x at row 256 t + r, column c. -/
theorem xblock_apply (c : Dev nD) (t : Fin cfg0.N) (r : Fin 256) (cc : Fin 4096) (h : 256 * t.val + r.val < 32768) :
    xblk m c t (ix2 r cc)
      = (m ((c : Thread nD τ).loc main_arg0) : Vec Ideal S32768x4096 .f32) (ix2 ⟨256 * t.val + r.val, h⟩ cc) := by
  obtain ⟨e0, e1, -⟩ := index_facts t
  refine Eq.trans ?_ (congrFun (V_main_arg0 m c) _)
  unfold xblk iblk
  rw [View.read_apply]
  show V m c main_arg0 _ = V m c main_arg0 _
  congr 1
  funext a; apply Fin.ext
  match a with
  | ⟨0, _⟩ => show win0_0.index t (0 : Fin 2) * 256 + 1 * r.val = 256 * t.val + r.val; rw [e0]; omega
  | ⟨1, _⟩ => show win0_0.index t (1 : Fin 2) * 4096 + 1 * cc.val = cc.val; rw [e1]; omega

/-- Weight window 1's block at any point, at (k, j), is the weight argument 0 at (j, k): the host transposed it before
    the kernel, and the window stages the whole matrix. -/
theorem wblock0_apply (c : Dev nD) (t : Fin cfg0.N) (k : Fin 128) (j : Fin 128) :
    wblk0 m c t (ix2 k j)
      = (m ((c : Thread nD τ).loc main_arg1) : Vec Ideal S128x128 .f32) (ix2 j k) := by
  have ht := index_facts t
  have e0 : win0_1.index t (0 : Fin 2) = 0 := by tauto
  have e1 : win0_1.index t (1 : Fin 2) = 0 := by tauto
  have hV : (V m c main_v0 : Vec Ideal S128x128 .f32)
      = transpose S128x128 [1, 0] (m ((c : Thread nD τ).loc main_arg1)) transposes_S128x128_S128x128_1_0 := by
    dsimp only [V, hostOps0]; after_results
  refine Eq.trans ?_ ((congrFun hV _).trans (transpose_ix2_apply _ _ k j))
  unfold wblk0 iblk
  rw [View.read_apply]
  show V m c main_v0 _ = V m c main_v0 _
  congr 1
  funext a; apply Fin.ext
  match a with
  | ⟨0, _⟩ => show win0_1.index t (0 : Fin 2) * 128 + 1 * k.val = k.val; rw [e0]; omega
  | ⟨1, _⟩ => show win0_1.index t (1 : Fin 2) * 128 + 1 * j.val = j.val; rw [e1]; omega

/-- Weight window 2's block at any point, at (k, j), is the weight argument 1 at (j, k): the host transposed it before
    the kernel, and the window stages the whole matrix. -/
theorem wblock1_apply (c : Dev nD) (t : Fin cfg0.N) (k : Fin 128) (j : Fin 128) :
    wblk1 m c t (ix2 k j)
      = (m ((c : Thread nD τ).loc main_arg2) : Vec Ideal S128x128 .f32) (ix2 j k) := by
  have ht := index_facts t
  have e0 : win0_2.index t (0 : Fin 2) = 0 := by tauto
  have e1 : win0_2.index t (1 : Fin 2) = 0 := by tauto
  have hV : (V m c main_v1 : Vec Ideal S128x128 .f32)
      = transpose S128x128 [1, 0] (m ((c : Thread nD τ).loc main_arg2)) transposes_S128x128_S128x128_1_0 := by
    dsimp only [V, hostOps0]; after_results
  refine Eq.trans ?_ ((congrFun hV _).trans (transpose_ix2_apply _ _ k j))
  unfold wblk1 iblk
  rw [View.read_apply]
  show V m c main_v1 _ = V m c main_v1 _
  congr 1
  funext a; apply Fin.ext
  match a with
  | ⟨0, _⟩ => show win0_2.index t (0 : Fin 2) * 128 + 1 * k.val = k.val; rw [e0]; omega
  | ⟨1, _⟩ => show win0_2.index t (1 : Fin 2) * 128 + 1 * j.val = j.val; rw [e1]; omega

/-- Weight window 3's block at any point, at (k, j), is the weight argument 2 at (j, k): the host transposed it before
    the kernel, and the window stages the whole matrix. -/
theorem wblock2_apply (c : Dev nD) (t : Fin cfg0.N) (k : Fin 384) (j : Fin 384) :
    wblk2 m c t (ix2 k j)
      = (m ((c : Thread nD τ).loc main_arg3) : Vec Ideal S384x384 .f32) (ix2 j k) := by
  have ht := index_facts t
  have e0 : win0_3.index t (0 : Fin 2) = 0 := by tauto
  have e1 : win0_3.index t (1 : Fin 2) = 0 := by tauto
  have hV : (V m c main_v2 : Vec Ideal S384x384 .f32)
      = transpose S384x384 [1, 0] (m ((c : Thread nD τ).loc main_arg3)) transposes_S384x384_S384x384_1_0 := by
    dsimp only [V, hostOps0]; after_results
  refine Eq.trans ?_ ((congrFun hV _).trans (transpose_ix2_apply _ _ k j))
  unfold wblk2 iblk
  rw [View.read_apply]
  show V m c main_v2 _ = V m c main_v2 _
  congr 1
  funext a; apply Fin.ext
  match a with
  | ⟨0, _⟩ => show win0_3.index t (0 : Fin 2) * 384 + 1 * k.val = k.val; rw [e0]; omega
  | ⟨1, _⟩ => show win0_3.index t (1 : Fin 2) * 384 + 1 * j.val = j.val; rw [e1]; omega

/-- Weight window 4's block at any point, at (k, j), is the weight argument 3 at (j, k): the host transposed it before
    the kernel, and the window stages the whole matrix. -/
theorem wblock3_apply (c : Dev nD) (t : Fin cfg0.N) (k : Fin 384) (j : Fin 384) :
    wblk3 m c t (ix2 k j)
      = (m ((c : Thread nD τ).loc main_arg4) : Vec Ideal S384x384 .f32) (ix2 j k) := by
  have ht := index_facts t
  have e0 : win0_4.index t (0 : Fin 2) = 0 := by tauto
  have e1 : win0_4.index t (1 : Fin 2) = 0 := by tauto
  have hV : (V m c main_v3 : Vec Ideal S384x384 .f32)
      = transpose S384x384 [1, 0] (m ((c : Thread nD τ).loc main_arg4)) transposes_S384x384_S384x384_1_0 := by
    dsimp only [V, hostOps0]; after_results
  refine Eq.trans ?_ ((congrFun hV _).trans (transpose_ix2_apply _ _ k j))
  unfold wblk3 iblk
  rw [View.read_apply]
  show V m c main_v3 _ = V m c main_v3 _
  congr 1
  funext a; apply Fin.ext
  match a with
  | ⟨0, _⟩ => show win0_4.index t (0 : Fin 2) * 384 + 1 * k.val = k.val; rw [e0]; omega
  | ⟨1, _⟩ => show win0_4.index t (1 : Fin 2) * 384 + 1 * j.val = j.val; rw [e1]; omega

/-- Weight window 5's block at any point, at (k, j), is the weight argument 4 at (j, k): the host transposed it before
    the kernel, and the window stages the whole matrix. -/
theorem wblock4_apply (c : Dev nD) (t : Fin cfg0.N) (k : Fin 640) (j : Fin 640) :
    wblk4 m c t (ix2 k j)
      = (m ((c : Thread nD τ).loc main_arg5) : Vec Ideal S640x640 .f32) (ix2 j k) := by
  have ht := index_facts t
  have e0 : win0_5.index t (0 : Fin 2) = 0 := by tauto
  have e1 : win0_5.index t (1 : Fin 2) = 0 := by tauto
  have hV : (V m c main_v4 : Vec Ideal S640x640 .f32)
      = transpose S640x640 [1, 0] (m ((c : Thread nD τ).loc main_arg5)) transposes_S640x640_S640x640_1_0 := by
    dsimp only [V, hostOps0]; after_results
  refine Eq.trans ?_ ((congrFun hV _).trans (transpose_ix2_apply _ _ k j))
  unfold wblk4 iblk
  rw [View.read_apply]
  show V m c main_v4 _ = V m c main_v4 _
  congr 1
  funext a; apply Fin.ext
  match a with
  | ⟨0, _⟩ => show win0_5.index t (0 : Fin 2) * 640 + 1 * k.val = k.val; rw [e0]; omega
  | ⟨1, _⟩ => show win0_5.index t (1 : Fin 2) * 640 + 1 * j.val = j.val; rw [e1]; omega

/-- Weight window 6's block at any point, at (k, j), is the weight argument 5 at (j, k): the host transposed it before
    the kernel, and the window stages the whole matrix. -/
theorem wblock5_apply (c : Dev nD) (t : Fin cfg0.N) (k : Fin 640) (j : Fin 640) :
    wblk5 m c t (ix2 k j)
      = (m ((c : Thread nD τ).loc main_arg6) : Vec Ideal S640x640 .f32) (ix2 j k) := by
  have ht := index_facts t
  have e0 : win0_6.index t (0 : Fin 2) = 0 := by tauto
  have e1 : win0_6.index t (1 : Fin 2) = 0 := by tauto
  have hV : (V m c main_v5 : Vec Ideal S640x640 .f32)
      = transpose S640x640 [1, 0] (m ((c : Thread nD τ).loc main_arg6)) transposes_S640x640_S640x640_1_0 := by
    dsimp only [V, hostOps0]; after_results
  refine Eq.trans ?_ ((congrFun hV _).trans (transpose_ix2_apply _ _ k j))
  unfold wblk5 iblk
  rw [View.read_apply]
  show V m c main_v5 _ = V m c main_v5 _
  congr 1
  funext a; apply Fin.ext
  match a with
  | ⟨0, _⟩ => show win0_6.index t (0 : Fin 2) * 640 + 1 * k.val = k.val; rw [e0]; omega
  | ⟨1, _⟩ => show win0_6.index t (1 : Fin 2) * 640 + 1 * j.val = j.val; rw [e1]; omega

/-- Weight window 7's block at any point, at (k, j), is the weight argument 6 at (j, k): the host transposed it before
    the kernel, and the window stages the whole matrix. -/
theorem wblock6_apply (c : Dev nD) (t : Fin cfg0.N) (k : Fin 896) (j : Fin 896) :
    wblk6 m c t (ix2 k j)
      = (m ((c : Thread nD τ).loc main_arg7) : Vec Ideal S896x896 .f32) (ix2 j k) := by
  have ht := index_facts t
  have e0 : win0_7.index t (0 : Fin 2) = 0 := by tauto
  have e1 : win0_7.index t (1 : Fin 2) = 0 := by tauto
  have hV : (V m c main_v6 : Vec Ideal S896x896 .f32)
      = transpose S896x896 [1, 0] (m ((c : Thread nD τ).loc main_arg7)) transposes_S896x896_S896x896_1_0 := by
    dsimp only [V, hostOps0]; after_results
  refine Eq.trans ?_ ((congrFun hV _).trans (transpose_ix2_apply _ _ k j))
  unfold wblk6 iblk
  rw [View.read_apply]
  show V m c main_v6 _ = V m c main_v6 _
  congr 1
  funext a; apply Fin.ext
  match a with
  | ⟨0, _⟩ => show win0_7.index t (0 : Fin 2) * 896 + 1 * k.val = k.val; rw [e0]; omega
  | ⟨1, _⟩ => show win0_7.index t (1 : Fin 2) * 896 + 1 * j.val = j.val; rw [e1]; omega

/-- Weight window 8's block at any point, at (k, j), is the weight argument 7 at (j, k): the host transposed it before
    the kernel, and the window stages the whole matrix. -/
theorem wblock7_apply (c : Dev nD) (t : Fin cfg0.N) (k : Fin 896) (j : Fin 896) :
    wblk7 m c t (ix2 k j)
      = (m ((c : Thread nD τ).loc main_arg8) : Vec Ideal S896x896 .f32) (ix2 j k) := by
  have ht := index_facts t
  have e0 : win0_8.index t (0 : Fin 2) = 0 := by tauto
  have e1 : win0_8.index t (1 : Fin 2) = 0 := by tauto
  have hV : (V m c main_v7 : Vec Ideal S896x896 .f32)
      = transpose S896x896 [1, 0] (m ((c : Thread nD τ).loc main_arg8)) transposes_S896x896_S896x896_1_0 := by
    dsimp only [V, hostOps0]; after_results
  refine Eq.trans ?_ ((congrFun hV _).trans (transpose_ix2_apply _ _ k j))
  unfold wblk7 iblk
  rw [View.read_apply]
  show V m c main_v7 _ = V m c main_v7 _
  congr 1
  funext a; apply Fin.ext
  match a with
  | ⟨0, _⟩ => show win0_8.index t (0 : Fin 2) * 896 + 1 * k.val = k.val; rw [e0]; omega
  | ⟨1, _⟩ => show win0_8.index t (1 : Fin 2) * 896 + 1 * j.val = j.val; rw [e1]; omega

/-- The specification's result of the argument arrays, restricted to the rows of grid point t. -/
def rowsOf (c : Dev nD) (t : Fin cfg0.N) : S256x4096.Idx → Ideal .f32 := fun y =>
  (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix2 ⟨256 * t.val + (y 0).val, by have := point_lt t; have : (y 0).val < 256 := (y 0).isLt; omega⟩ (y 1))

/-- On segment 0 the restricted result is the sum of products of the point's loaded blocks. -/
theorem rowsOf_seg0 (c : Dev nD) (t : Fin cfg0.N) (r : Fin 256) (j : Fin 128) :
    rowsOf m c t (ix2 r ⟨0 + j.val, by have := j.isLt; omega⟩)
      = ∑ k : Fin 128, xblk m c t (ix2 r ⟨0 + k.val, by have := k.isLt; omega⟩)
          * wblk0 m c t (ix2 k j) := by
  unfold rowsOf
  refine (result_seg0 _ _ _ _ _ _ _ _ _ _ j _ rfl).trans ?_
  unfold segAt
  refine Finset.sum_congr rfl fun k _ => ?_
  rw [xblock_apply m c t r _ (by have := point_lt t; have := r.isLt; omega), wblock0_apply m c t k j]

/-- On segment 1 the restricted result is the sum of products of the point's loaded blocks. -/
theorem rowsOf_seg1 (c : Dev nD) (t : Fin cfg0.N) (r : Fin 256) (j : Fin 128) :
    rowsOf m c t (ix2 r ⟨128 + j.val, by have := j.isLt; omega⟩)
      = ∑ k : Fin 128, xblk m c t (ix2 r ⟨128 + k.val, by have := k.isLt; omega⟩)
          * wblk1 m c t (ix2 k j) := by
  unfold rowsOf
  refine (result_seg1 _ _ _ _ _ _ _ _ _ _ j _ rfl).trans ?_
  unfold segAt
  refine Finset.sum_congr rfl fun k _ => ?_
  rw [xblock_apply m c t r _ (by have := point_lt t; have := r.isLt; omega), wblock1_apply m c t k j]

/-- On segment 2 the restricted result is the sum of products of the point's loaded blocks. -/
theorem rowsOf_seg2 (c : Dev nD) (t : Fin cfg0.N) (r : Fin 256) (j : Fin 384) :
    rowsOf m c t (ix2 r ⟨256 + j.val, by have := j.isLt; omega⟩)
      = ∑ k : Fin 384, xblk m c t (ix2 r ⟨256 + k.val, by have := k.isLt; omega⟩)
          * wblk2 m c t (ix2 k j) := by
  unfold rowsOf
  refine (result_seg2 _ _ _ _ _ _ _ _ _ _ j _ rfl).trans ?_
  unfold segAt
  refine Finset.sum_congr rfl fun k _ => ?_
  rw [xblock_apply m c t r _ (by have := point_lt t; have := r.isLt; omega), wblock2_apply m c t k j]

/-- On segment 3 the restricted result is the sum of products of the point's loaded blocks. -/
theorem rowsOf_seg3 (c : Dev nD) (t : Fin cfg0.N) (r : Fin 256) (j : Fin 384) :
    rowsOf m c t (ix2 r ⟨640 + j.val, by have := j.isLt; omega⟩)
      = ∑ k : Fin 384, xblk m c t (ix2 r ⟨640 + k.val, by have := k.isLt; omega⟩)
          * wblk3 m c t (ix2 k j) := by
  unfold rowsOf
  refine (result_seg3 _ _ _ _ _ _ _ _ _ _ j _ rfl).trans ?_
  unfold segAt
  refine Finset.sum_congr rfl fun k _ => ?_
  rw [xblock_apply m c t r _ (by have := point_lt t; have := r.isLt; omega), wblock3_apply m c t k j]

/-- On segment 4 the restricted result is the sum of products of the point's loaded blocks. -/
theorem rowsOf_seg4 (c : Dev nD) (t : Fin cfg0.N) (r : Fin 256) (j : Fin 640) :
    rowsOf m c t (ix2 r ⟨1024 + j.val, by have := j.isLt; omega⟩)
      = ∑ k : Fin 640, xblk m c t (ix2 r ⟨1024 + k.val, by have := k.isLt; omega⟩)
          * wblk4 m c t (ix2 k j) := by
  unfold rowsOf
  refine (result_seg4 _ _ _ _ _ _ _ _ _ _ j _ rfl).trans ?_
  unfold segAt
  refine Finset.sum_congr rfl fun k _ => ?_
  rw [xblock_apply m c t r _ (by have := point_lt t; have := r.isLt; omega), wblock4_apply m c t k j]

/-- On segment 5 the restricted result is the sum of products of the point's loaded blocks. -/
theorem rowsOf_seg5 (c : Dev nD) (t : Fin cfg0.N) (r : Fin 256) (j : Fin 640) :
    rowsOf m c t (ix2 r ⟨1664 + j.val, by have := j.isLt; omega⟩)
      = ∑ k : Fin 640, xblk m c t (ix2 r ⟨1664 + k.val, by have := k.isLt; omega⟩)
          * wblk5 m c t (ix2 k j) := by
  unfold rowsOf
  refine (result_seg5 _ _ _ _ _ _ _ _ _ _ j _ rfl).trans ?_
  unfold segAt
  refine Finset.sum_congr rfl fun k _ => ?_
  rw [xblock_apply m c t r _ (by have := point_lt t; have := r.isLt; omega), wblock5_apply m c t k j]

/-- On segment 6 the restricted result is the sum of products of the point's loaded blocks. -/
theorem rowsOf_seg6 (c : Dev nD) (t : Fin cfg0.N) (r : Fin 256) (j : Fin 896) :
    rowsOf m c t (ix2 r ⟨2304 + j.val, by have := j.isLt; omega⟩)
      = ∑ k : Fin 896, xblk m c t (ix2 r ⟨2304 + k.val, by have := k.isLt; omega⟩)
          * wblk6 m c t (ix2 k j) := by
  unfold rowsOf
  refine (result_seg6 _ _ _ _ _ _ _ _ _ _ j _ rfl).trans ?_
  unfold segAt
  refine Finset.sum_congr rfl fun k _ => ?_
  rw [xblock_apply m c t r _ (by have := point_lt t; have := r.isLt; omega), wblock6_apply m c t k j]

/-- On segment 7 the restricted result is the sum of products of the point's loaded blocks. -/
theorem rowsOf_seg7 (c : Dev nD) (t : Fin cfg0.N) (r : Fin 256) (j : Fin 896) :
    rowsOf m c t (ix2 r ⟨3200 + j.val, by have := j.isLt; omega⟩)
      = ∑ k : Fin 896, xblk m c t (ix2 r ⟨3200 + k.val, by have := k.isLt; omega⟩)
          * wblk7 m c t (ix2 k j) := by
  unfold rowsOf
  refine (result_seg7 _ _ _ _ _ _ _ _ _ _ j _ rfl).trans ?_
  unfold segAt
  refine Finset.sum_congr rfl fun k _ => ?_
  rw [xblock_apply m c t r _ (by have := point_lt t; have := r.isLt; omega), wblock7_apply m c t k j]

/-- What the body leaves in the output block at point t is the result restricted to the point's rows. -/
theorem outs_eq (c : Dev nD) (t : Fin cfg0.N) : outsAt0 m c t = rowsOf m c t := by
  unfold outsAt0
  exact Body.block_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) (iblk m c 6 t) (iblk m c 7 t)
    (iblk m c 8 t) (rowsOf m c t) (rowsOf_seg0 m c t) (rowsOf_seg1 m c t) (rowsOf_seg2 m c t) (rowsOf_seg3 m c t)
    (rowsOf_seg4 m c t) (rowsOf_seg5 m c t) (rowsOf_seg6 m c t) (rowsOf_seg7 m c t)

/-- What point t writes back is block t of the result. -/
theorem flushed_eq (c : Dev nD) (t : Fin cfg0.N) :
    (dats m 0 c).flushed 9 t = ((cfg0.win 9).blk t).view.read (Elt Ideal) (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [flushed9, outs_eq]
  obtain ⟨-, -, e0, e1, -⟩ := index_facts t
  funext y
  show rowsOf m c t y = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (((cfg0.win 9).blk t).view.emb y)
  unfold rowsOf
  congr 1
  funext a; apply Fin.ext
  match a with
  | ⟨0, _⟩ => show 256 * t.val + (y 0).val = win0_9.index t (0 : Fin 2) * 256 + 1 * (y 0).val; rw [e0]; omega
  | ⟨1, _⟩ => show (y 1).val = win0_9.index t (1 : Fin 2) * 4096 + 1 * (y 1).val; rw [e1]; omega

/-- An index of the result array is in point t's block iff each coordinate is in the block's range on its axis. -/
theorem mem_block (t : Fin cfg0.N) (i : S32768x4096.Idx) :
    i ∈ ((cfg0.win 9).blk t).view.set ↔ ∀ a : Fin 2, win0_9.index t a * S256x4096.size a ≤ (i a).val
      ∧ (i a).val < win0_9.index t a * S256x4096.size a + S256x4096.size a := by
  show i ∈ ((View.whole main_v8).slice (win0_9.rect t)).set ↔ _
  rw [View.set_slice_whole, Rect.mem_set_unit]
  exact Iff.rfl

/-- The array after the run is the result: row n lies in the block of point n / 256. -/
theorem final (c : Dev nD) : (dats m 0 c).arrAt 9 cfg0.N = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (dats m 0 c).arrAt_eq_of_cover 9 _ (fun t _ => flushed_eq m c t) fun i => by
    have hN : cfg0.N = 128 := N_0
    have hi0 : (i 0).val < 32768 := (i 0).isLt
    have hi1 : (i 1).val < 4096 := (i 1).isLt
    let t : Fin cfg0.N := ⟨(i 0).val / 256, by rw [hN]; omega⟩
    obtain ⟨-, -, e0, e1, -⟩ := index_facts t
    have e0' : win0_9.index t (0 : Fin 2) = (i 0).val / 256 := e0
    refine ⟨t, flush0_9 t, ?_⟩
    rw [mem_block]
    intro a
    match a with
    | ⟨0, _⟩ => show win0_9.index t (0 : Fin 2) * 256 ≤ (i 0).val ∧ (i 0).val < win0_9.index t (0 : Fin 2) * 256 + 256; rw [e0']; omega
    | ⟨1, _⟩ => show win0_9.index t (1 : Fin 2) * 4096 ≤ (i 1).val ∧ (i 1).val < win0_9.index t (1 : Fin 2) * 4096 + 4096; rw [e1]; omega

/-- The kernel's run, its result array named: the block-diagonal product of the arguments, which end unchanged. -/
theorem run : θ_run defs (onTc (τ := τ) (main (F := Ideal))) ⟨m, fun _ => 0, ρ⟩ fun r => ∀ c : Dev nD,
      r.2.mem ((c : Thread nD τ).loc main_v8) = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.BlockDiag.Kernel

end
-- ==== Proof.lean ====
/-
  The certificate of the block-diagonal linear layer.

  Both programs compute, for each of eight consecutive column segments of x (widths 128, 128, 384, 384, 640, 640, 896,
  896), the product of x's segment columns with the transpose of that segment's square weight, and lay the eight
  products side by side:  out[n, s_l + j] = Σ_k x[n, s_l + k] · W_l[j, k]  (Proof/BlockDiagSpec.lean).

  The kernel transposes the weights on the host, then walks 128 row blocks of 256 rows; at each it multiplies the
  block's segment columns by the staged transposed weight (operands narrowed to bf16, which is the identity at the
  ideal values) into a zero accumulator and stores the product in the same columns of the output block
  (Proof/BodyBlock.lean: the block; Proof/KernelArray.lean: the array). The reference slices, transposes, multiplies
  and concatenates on the host (Proof/ReferenceResult.lean). Each side is the specification's sum over k term by term,
  so the two results are equal on every input, finite or not; the idealization rewrote nothing, so its ledger is empty.
-/
import proofs.«111216_j14791867368254_1_alg».proof.Defs
import proofs.«111216_j14791867368254_1_alg».proof.Proof.Gen.Kernel
import proofs.«111216_j14791867368254_1_alg».proof.Proof.Gen.Kernel.Skeleton
import proofs.«111216_j14791867368254_1_alg».proof.Proof.Gen.Kernel.Launch
import proofs.«111216_j14791867368254_1_alg».proof.Proof.Gen.Kernel.Points
import proofs.«111216_j14791867368254_1_alg».proof.Proof.Gen.Kernel.Frame
import proofs.«111216_j14791867368254_1_alg».proof.Proof.Gen.KernelIdeal
import proofs.«111216_j14791867368254_1_alg».proof.Proof.Gen.KernelIdeal.Skeleton
import proofs.«111216_j14791867368254_1_alg».proof.Proof.Gen.KernelIdeal.Launch
import proofs.«111216_j14791867368254_1_alg».proof.Proof.Gen.KernelIdeal.Points
import proofs.«111216_j14791867368254_1_alg».proof.Proof.Gen.KernelIdeal.Frame
import proofs.«111216_j14791867368254_1_alg».proof.Proof.Gen.KernelIdeal.Value
import proofs.«111216_j14791867368254_1_alg».proof.Proof.Gen.ReferenceIdeal
import proofs.«111216_j14791867368254_1_alg».proof.Proof.Gen.ReferenceIdeal.Run
import proofs.«111216_j14791867368254_1_alg».proof.Proof.Gen.ReferenceIdeal.Read
import proofs.«111216_j14791867368254_1_alg».proof.Proof.Gen.Pre_finite_inputs
import proofs.«111216_j14791867368254_1_alg».proof.Proof.BlockDiagSpec
import proofs.«111216_j14791867368254_1_alg».proof.Proof.ReferenceResult
import proofs.«111216_j14791867368254_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the block-diagonal product of their (agreeing) arguments. -/
theorem algebraic : Cert.algebraic_KernelIdeal_ReferenceIdeal := by
  intro m ρ m' ρ' _ hagree
  refine ⟨fun c => Cert.BlockDiag.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.BlockDiag.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.BlockDiag.Reference.reference_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
